-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x64 : Shape := ⟨2, ![512, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S10 .f32) (main_v33 : IVec S_ 1) : IVec S_ 1 :=
  let main_v34 : FVec F S10 .f32 := Host.absf main_arg8
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg5 : FVec F S64 .f32) (main_arg6 : FVec F S64x10 .f32) (main_arg7 : FVec F S64x10 .f32) (main_arg8 : FVec F S10 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg6
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S64x10 .f32 := Host.absf main_arg7
  let main_cst_10 : FVec F S_ .f32 := constant S_ .f32 0x7F800000#32
  let main_v30 : FVec F S64x10 .f32 := broadcastInDim S64x10 ![] bcast_S_S64x10 main_cst_10
  let main_v31 : IVec S64x10 1 := cmpf .olt main_v29 main_v30
  let main_c_11 : IVec S_ 1 := constantI S_ 1 1#1
  let main_v32 : IVec S_ 1 := (fun x v => Host.reduce IntOp.andi x v reducesTo_S64x10_S_d0_1 h_S_) main_v31 main_c_11
  let main_v33 : IVec S_ 1 := andi main_v28 main_v32
  fn_part2 (F := F) main_arg8 main_v33

def fn {F : FTy → Type} [FloatOps F] (main_arg0 : FVec F S100000x512 .f32) (main_arg1 : IVec S2x3200000 32) (main_arg2 : FVec F S3200000 .f32) (main_arg3 : FVec F S512x64 .f32) (main_arg4 : FVec F S512x64 .f32) (main_arg5 : FVec F S64 .f32) (main_arg6 : FVec F S64x10 .f32) (main_arg7 : FVec F S64x10 .f32) (main_arg8 : FVec F S10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x64 .f32 := Host.absf main_arg3
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x64 .f32 := Host.absf main_arg4
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg5 main_arg6 main_arg7 main_arg8 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x64 : Shape := ⟨2, ![512, 64]⟩
abbrev S64 : Shape := ⟨1, ![64]⟩
abbrev S64x10 : Shape := ⟨2, ![64, 10]⟩
abbrev S10 : Shape := ⟨1, ![10]⟩
abbrev S100000x64 : Shape := ⟨2, ![100000, 64]⟩
abbrev S5000x512 : Shape := ⟨2, ![5000, 512]⟩
abbrev S5000x64 : Shape := ⟨2, ![5000, 64]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S1x10 : Shape := ⟨2, ![1, 10]⟩
abbrev S100000x10 : Shape := ⟨2, ![100000, 10]⟩
abbrev S5000x10 : Shape := ⟨2, ![5000, 10]⟩

abbrev nBuf : Space → Nat
  | .hbm => 74
  | .vmem => 14
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x64, .f32⟩
  | .hbm, ⟨4, _⟩ => ⟨S512x64, .f32⟩
  | .hbm, ⟨5, _⟩ => ⟨S64, .f32⟩
  | .hbm, ⟨6, _⟩ => ⟨S64x10, .f32⟩
  | .hbm, ⟨7, _⟩ => ⟨S64x10, .f32⟩
  | .hbm, ⟨8, _⟩ => ⟨S10, .f32⟩
  | .hbm, ⟨9, _⟩ => ⟨S100000x64, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S100000, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000, .f32⟩
  | .hbm, ⟨54, _⟩ => ⟨S3300000, .f32⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S3300000x64, .f32⟩
  | .hbm, ⟨64, _⟩ => ⟨S3300000x1, .f32⟩
  | .hbm, ⟨65, _⟩ => ⟨S3300000x64, .f32⟩
  | .hbm, ⟨66, _⟩ => ⟨S3300000x64, .f32⟩
  | .hbm, ⟨67, _⟩ => ⟨S_, .f32⟩
  | .hbm, ⟨68, _⟩ => ⟨S100000x64, .f32⟩
  | .hbm, ⟨69, _⟩ => ⟨S3300000x1, .i32⟩
  | .hbm, ⟨70, _⟩ => ⟨S100000x64, .f32⟩
  | .hbm, ⟨71, _⟩ => ⟨S1x64, .f32⟩
  | .hbm, ⟨72, _⟩ => ⟨S1x10, .f32⟩
  | .hbm, ⟨73, _⟩ => ⟨S100000x10, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S512x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S1x64, .f32⟩
  | .local _ .vmem, ⟨9, _⟩ => ⟨S64x10, .f32⟩
  | .local _ .vmem, ⟨10, _⟩ => ⟨S64x10, .f32⟩
  | .local _ .vmem, ⟨11, _⟩ => ⟨S1x10, .f32⟩
  | .local _ .vmem, ⟨12, _⟩ => ⟨S5000x10, .f32⟩
  | .local _ .vmem, ⟨13, _⟩ => ⟨S5000x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x10 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S512x64_S512x64_0_0 : ∀ a, (![0, 0] : Fin 2 → Nat) a + S512x64.size a ≤ S512x64.size a
  h_S512x64 : 0 < S512x64.numel
  bitsLt_bf16_f32 : FTy.bits .bf16 < FTy.bits .f32
  inb_S5000x512_S5000x512_0_0 : ∀ a, (![0, 0] : Fin 2 → Nat) a + S5000x512.size a ≤ S5000x512.size a
  h_S5000x512 : 0 < S5000x512.numel
  inb_S5000x64_S5000x64_0_0 : ∀ a, (![0, 0] : Fin 2 → Nat) a + S5000x64.size a ≤ S5000x64.size a
  h_S5000x64 : 0 < S5000x64.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10_S1x10 : S10.ShapeCasts S1x10
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  dot_S5000x512_S512x64_S5000x64_1_0_0_1_n_n_wf : DotDims.WF S5000x512 S512x64 S5000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x10_S5000x10_1_0_0_1_n_n_wf : DotDims.WF S5000x64 S64x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x10.size a ≤ S64x10.size a
  hwx1_2 : ∀ i : grid1.Coords, EltTy.bits .f32 = 32 ∨ (Rect.block (s := S64x10) S64x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x10.size a ≤ S64x10.size a
  hwx1_3 : ∀ i : grid1.Coords, EltTy.bits .f32 = 32 ∨ (Rect.block (s := S64x10) S64x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x10.size a ≤ S1x10.size a
  hwx1_4 : ∀ i : grid1.Coords, EltTy.bits .f32 = 32 ∨ (Rect.block (s := S1x10) S1x10.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x10.size a ≤ S100000x10.size a
  hwx1_5 : ∀ i : grid1.Coords, EltTy.bits .f32 = 32 ∨ (Rect.block (s := S100000x10) S5000x10.size (cc1_transform_5 i) (hinb1_5 i)).WholeWords (EltTy.packing .f32)

variable [Facts₀]

def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S5000x10.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x64 : Shape := ⟨2, ![512, 64]⟩
abbrev S64 : Shape := ⟨1, ![64]⟩
abbrev S64x10 : Shape := ⟨2, ![64, 10]⟩
abbrev S10 : Shape := ⟨1, ![10]⟩
abbrev S100000x64 : Shape := ⟨2, ![100000, 64]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x10 : Shape := ⟨2, ![100000, 10]⟩
abbrev S1x10 : Shape := ⟨2, ![1, 10]⟩

abbrev nBuf : Space → Nat
  | .hbm => 83
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x64, .f32⟩
  | .hbm, ⟨4, _⟩ => ⟨S512x64, .f32⟩
  | .hbm, ⟨5, _⟩ => ⟨S64, .f32⟩
  | .hbm, ⟨6, _⟩ => ⟨S64x10, .f32⟩
  | .hbm, ⟨7, _⟩ => ⟨S64x10, .f32⟩
  | .hbm, ⟨8, _⟩ => ⟨S10, .f32⟩
  | .hbm, ⟨9, _⟩ => ⟨S512x64, .f32⟩
  | .hbm, ⟨10, _⟩ => ⟨S100000x64, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S100000, .f32⟩
  | .hbm, ⟨20, _⟩ => ⟨S3300000, .f32⟩
  | .hbm, ⟨21, _⟩ => ⟨S_, .f32⟩
  | .hbm, ⟨22, _⟩ => ⟨S100000, .f32⟩
  | .hbm, ⟨23, _⟩ => ⟨S3300000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000, .f32⟩
  | .hbm, ⟨55, _⟩ => ⟨S3300000, .f32⟩
  | .hbm, ⟨56, _⟩ => ⟨S_, .i32⟩
  | .hbm, ⟨57, _⟩ => ⟨S3300000, .i32⟩
  | .hbm, ⟨58, _⟩ => ⟨S3300000, .i1⟩
  | .hbm, ⟨59, _⟩ => ⟨S_, .i32⟩
  | .hbm, ⟨60, _⟩ => ⟨S3300000, .i32⟩
  | .hbm, ⟨61, _⟩ => ⟨S3300000, .i32⟩
  | .hbm, ⟨62, _⟩ => ⟨S3300000, .i32⟩
  | .hbm, ⟨63, _⟩ => ⟨S3300000x1, .i32⟩
  | .hbm, ⟨64, _⟩ => ⟨S3300000x64, .f32⟩
  | .hbm, ⟨65, _⟩ => ⟨S3300000x1, .f32⟩
  | .hbm, ⟨66, _⟩ => ⟨S3300000x64, .f32⟩
  | .hbm, ⟨67, _⟩ => ⟨S3300000x64, .f32⟩
  | .hbm, ⟨68, _⟩ => ⟨S_, .f32⟩
  | .hbm, ⟨69, _⟩ => ⟨S100000x64, .f32⟩
  | .hbm, ⟨70, _⟩ => ⟨S3300000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S100000x64, .f32⟩
  | .hbm, ⟨77, _⟩ => ⟨S100000x64, .f32⟩
  | .hbm, ⟨78, _⟩ => ⟨S64x10, .f32⟩
  | .hbm, ⟨79, _⟩ => ⟨S100000x10, .f32⟩
  | .hbm, ⟨80, _⟩ => ⟨S1x10, .f32⟩
  | .hbm, ⟨81, _⟩ => ⟨S100000x10, .f32⟩
  | .hbm, ⟨82, _⟩ => ⟨S100000x10, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x512_S512x64_S100000x64_1_0_0_1_n_n_wf : DotDims.WF S100000x512 S512x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x10_S100000x10_1_0_0_1_n_n_wf : DotDims.WF S100000x64 S64x10 S100000x10 [1] [0] [0] [1] [] []

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf

class Facts : Prop extends Facts₀ where

variable [Facts]
-- ==== Proof.Spec.lean ====
/-
  The two dense stages of the masked graph convolution, as whole-array functions over the extended reals.

  `feat x w mk` is the masked feature transform: entry (r, j) is the sum over the 512 input features k of
  x[r, k] · (w[k, j] · mk[k, j]) — the matrix product of the node features with the elementwise-masked weight.

  `head a b1 w mk b2` is the classifier applied to an aggregated feature array a: entry (r, j) is the sum over
  the 64 hidden features k of max (a[r, k] + b1[k]) 0 · (w[k, j] · mk[k, j]), plus b2[j] — bias, rectifier,
  masked matrix product, bias. The zero of the rectifier is kept as the float word it is printed with.

  Both are stated row by row, so a tiling of the 100000 rows into blocks of 5000 computes them block by block:
  row r of either depends on row r of its first operand only.
-/
import Idealize.ShloMosaic.PureOps.Ideal
import Idealize.ShloMosaic.Lib.ValueIdx

noncomputable section

namespace Cert.Spec

open Idealize.ShloMosaic Idealize.ShloMosaic.ValueIdx

/-- The masked feature transform x · (w ∘ mk), entry by entry. -/
def feat (x : FVec Ideal ⟨2, ![100000, 512]⟩ .f32) (w mk : FVec Ideal ⟨2, ![512, 64]⟩ .f32) :
    FVec Ideal ⟨2, ![100000, 64]⟩ .f32 :=
  fun i => ∑ k : Fin 512, x (ix2 (i 0) k) * (w (ix2 k (i 1)) * mk (ix2 k (i 1)))

/-- The classifier relu (a + b1) · (w ∘ mk) + b2, entry by entry; the biases as functions of the feature index. -/
def head (a : FVec Ideal ⟨2, ![100000, 64]⟩ .f32) (b1 : Fin 64 → EReal) (w mk : FVec Ideal ⟨2, ![64, 10]⟩ .f32)
    (b2 : Fin 10 → EReal) : FVec Ideal ⟨2, ![100000, 10]⟩ .f32 :=
  fun i => (∑ k : Fin 64, max (a (ix2 (i 0) k) + b1 k) (Ideal.ofBits .f32 0x00000000#32) * (w (ix2 k (i 1)) * mk (ix2 k (i 1))))
    + b2 (i 1)

theorem feat_apply (x : FVec Ideal ⟨2, ![100000, 512]⟩ .f32) (w mk : FVec Ideal ⟨2, ![512, 64]⟩ .f32)
    (r : Fin 100000) (j : Fin 64) :
    feat x w mk (ix2 r j) = ∑ k : Fin 512, x (ix2 r k) * (w (ix2 k j) * mk (ix2 k j)) := rfl

theorem head_apply (a : FVec Ideal ⟨2, ![100000, 64]⟩ .f32) (b1 : Fin 64 → EReal) (w mk : FVec Ideal ⟨2, ![64, 10]⟩ .f32)
    (b2 : Fin 10 → EReal) (r : Fin 100000) (j : Fin 10) :
    head a b1 w mk b2 (ix2 r j)
      = (∑ k : Fin 64, max (a (ix2 r k) + b1 k) (Ideal.ofBits .f32 0x00000000#32) * (w (ix2 k j) * mk (ix2 k j))) + b2 j := rfl

end Cert.Spec

end
-- ==== Proof.KFeat.lean ====
/-
  The first region's result array. The region tiles the 100000 rows of the node-feature matrix into 20 blocks of
  5000; at block t the body multiplies rows 5000·t … 5000·t + 4999 of x by the elementwise product of the whole
  weight and mask arrays (one matrix product into a zero accumulator, the change of float format the identity
  on the extended reals). Entry (p, j) of what block t writes back is therefore the sum over k of
  x[5000·t + p, k] · (w[k, j] · mk[k, j]): row 5000·t + p of `Spec.feat x w mk`. The 20 blocks tile the result array,
  so after the region it holds `Spec.feat` of the three arrays the region was entered with.
-/
import proofs.«120185_j15264313770213_1_alg».proof.Proof.Gen.KernelIdeal.Frame
import proofs.«120185_j15264313770213_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Feat

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## The body's matrix product at an index -/

/-- The left operand of the product is read at the output's row … -/
theorem lhs_row (i : S5000x64.Idx) (q : dot_S5000x512_S512x64_S5000x64_1_0_0_1_n_n.contr.Idx) :
    (dot_S5000x512_S512x64_S5000x64_1_0_0_1_n_n.lhsIdx i q 0).val = (i 0).val := by
  unfold DotDims.lhsIdx
  rw [dif_neg (show ¬(0 : Fin S5000x512.rank) ∈ dot_S5000x512_S512x64_S5000x64_1_0_0_1_n_n.lhsBatch by decide), dif_pos (show (0 : Fin S5000x512.rank) ∈ dot_S5000x512_S512x64_S5000x64_1_0_0_1_n_n.lhsNonContracting by decide)]
  rfl
/-- … and at the contraction index on its second axis; -/
theorem lhs_col (i : S5000x64.Idx) (q : dot_S5000x512_S512x64_S5000x64_1_0_0_1_n_n.contr.Idx) :
    (dot_S5000x512_S512x64_S5000x64_1_0_0_1_n_n.lhsIdx i q 1).val = (q ⟨0, by decide⟩).val :=
  dot_S5000x512_S512x64_S5000x64_1_0_0_1_n_n.lhsIdx_val_of_single rfl i q
/-- the right operand at the contraction index on its first axis … -/
theorem rhs_row (i : S5000x64.Idx) (q : dot_S5000x512_S512x64_S5000x64_1_0_0_1_n_n.contr.Idx) :
    (dot_S5000x512_S512x64_S5000x64_1_0_0_1_n_n.rhsIdx i q 0).val = (q ⟨0, by decide⟩).val :=
  dot_S5000x512_S512x64_S5000x64_1_0_0_1_n_n.rhsIdx_val_of_single rfl i q
/-- … and at the output's column. -/
theorem rhs_col (i : S5000x64.Idx) (q : dot_S5000x512_S512x64_S5000x64_1_0_0_1_n_n.contr.Idx) :
    (dot_S5000x512_S512x64_S5000x64_1_0_0_1_n_n.rhsIdx i q 1).val = (i 1).val := by
  unfold DotDims.rhsIdx
  rw [dif_neg (show ¬(1 : Fin S512x64.rank) ∈ dot_S5000x512_S512x64_S5000x64_1_0_0_1_n_n.rhsBatch by decide), dif_pos (show (1 : Fin S512x64.rank) ∈ dot_S5000x512_S512x64_S5000x64_1_0_0_1_n_n.rhsNonContracting by decide)]
  rfl

/-- What the body stores, at entry (p, j) of the block: the sum over the 512 features of the row block's entry times
    the masked weight's. -/
theorem pay_apply (w mk : FVec Ideal S512x64 .f32) (xb : FVec Ideal S5000x512 .f32) (p : Fin 5000) (j : Fin 64) :
    k0_pay1 (F := Ideal) w mk xb (ix2 p j) = ∑ k : Fin 512, xb (ix2 p k) * (w (ix2 k j) * mk (ix2 k j)) := by
  unfold k0_pay1
  simp only [matmul]
  rw [Ideal.matmul_constant_zero_apply, ← Equiv.sum_comp (contrEquiv1 dot_S5000x512_S512x64_S5000x64_1_0_0_1_n_n 512 rfl rfl).symm]
  refine Finset.sum_congr rfl fun k _ => ?_
  have hk := contrEquiv1_symm_val dot_S5000x512_S512x64_S5000x64_1_0_0_1_n_n 512 rfl rfl k
  have el : dot_S5000x512_S512x64_S5000x64_1_0_0_1_n_n.lhsIdx (ix2 p j) ((contrEquiv1 dot_S5000x512_S512x64_S5000x64_1_0_0_1_n_n 512 rfl rfl).symm k) = ix2 p k := funext fun a => Fin.ext (by
    match a with
    | ⟨0, _⟩ => exact lhs_row _ _
    | ⟨1, _⟩ => exact (lhs_col _ _).trans hk)
  have er : dot_S5000x512_S512x64_S5000x64_1_0_0_1_n_n.rhsIdx (ix2 p j) ((contrEquiv1 dot_S5000x512_S512x64_S5000x64_1_0_0_1_n_n 512 rfl rfl).symm k) = ix2 k j := funext fun a => Fin.ext (by
    match a with
    | ⟨0, _⟩ => exact (rhs_row _ _).trans hk
    | ⟨1, _⟩ => exact rhs_col _ _)
  rw [el, er]
  rfl

/-! ## The blocks -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block windows (the features, the result) sit at block t on the row
    axis, the weight and mask windows at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's block t is rows 5000·t … of the array. -/
theorem xblk_apply (c : Dev nD) (t : Fin cfg0.N) (p : Fin 5000) (k : Fin 512) (r : Fin 100000) (hr : r.val = 5000 * t.val + p.val) :
    iblk0 V c 0 t (ix2 p k) = V c main_arg0 (ix2 r k) := by
  obtain ⟨e00, e01, -⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 512 + 1 * k.val = k.val; omega

/-- The weight window's block is the whole weight array at every point. -/
theorem wblk_eq (c : Dev nD) (t : Fin cfg0.N) : iblk0 V c 1 t = V c main_arg3 := by
  obtain ⟨-, -, e10, e11, -⟩ := idx_facts t
  funext y
  show V c main_arg3 (((cfg0.win 1).blk t).view.emb y) = V c main_arg3 y
  refine congrArg (V c main_arg3) (funext fun a => Fin.ext ?_)
  match a with
  | ⟨0, _⟩ => show win0_1.index t (0 : Fin 2) * 512 + 1 * (y 0).val = (y 0).val; omega
  | ⟨1, _⟩ => show win0_1.index t (1 : Fin 2) * 64 + 1 * (y 1).val = (y 1).val; omega

/-- The mask window's block is the whole mask array at every point. -/
theorem mblk_eq (c : Dev nD) (t : Fin cfg0.N) : iblk0 V c 2 t = V c main_arg4 := by
  obtain ⟨-, -, -, -, e20, e21, -⟩ := idx_facts t
  funext y
  show V c main_arg4 (((cfg0.win 2).blk t).view.emb y) = V c main_arg4 y
  refine congrArg (V c main_arg4) (funext fun a => Fin.ext ?_)
  match a with
  | ⟨0, _⟩ => show win0_2.index t (0 : Fin 2) * 512 + 1 * (y 0).val = (y 0).val; omega
  | ⟨1, _⟩ => show win0_2.index t (1 : Fin 2) * 64 + 1 * (y 1).val = (y 1).val; omega

/-- WHAT POINT t WRITES BACK is block t of `Spec.feat` of the arrays the region was entered with. -/
theorem flushed_eq (c : Dev nD) (t : Fin cfg0.N) :
    (dat0 V c).flushed 3 t
      = ((cfg0.win 3).blk t).view.read (Elt Ideal) (Spec.feat (V c main_arg0) (V c main_arg3) (V c main_arg4)) := by
  show (cfg0.win 3).cut (grid0.coords t) ((dat0 V c).after 3 t) = _
  rw [after0_3]
  unfold out0_3
  rw [View.canon_unit_zero hz]
  simp only [View.ld_unit_zero (S := S512x64) hz, View.ld_unit_zero (S := S5000x512) hz]
  rw [wblk_eq V c t, mblk_eq V c t]
  obtain ⟨-, -, -, -, -, -, e30, e31⟩ := idx_facts t
  funext y
  obtain ⟨p, j, rfl⟩ : ∃ (p : Fin 5000) (j : Fin 64), y = ix2 p j := ⟨y 0, y 1, eq_ix2 y⟩
  have ht : t.val < 20 := t.isLt
  have hr : 5000 * t.val + p.val < 100000 := by have := p.isLt; omega
  show k0_pay1 (F := Ideal) (V c main_arg3) (V c main_arg4) (iblk0 V c 0 t) (ix2 p j)
    = Spec.feat (V c main_arg0) (V c main_arg3) (V c main_arg4) (((cfg0.win 3).blk t).view.emb (ix2 p j))
  have hemb : ((cfg0.win 3).blk t).view.emb (ix2 p j) = ix2 (⟨5000 * t.val + p.val, hr⟩ : Fin 100000) j := funext fun a => Fin.ext (by
    match a with
    | ⟨0, _⟩ => show win0_3.index t (0 : Fin 2) * 5000 + 1 * p.val = 5000 * t.val + p.val; omega
    | ⟨1, _⟩ => show win0_3.index t (1 : Fin 2) * 64 + 1 * j.val = j.val; omega)
  rw [hemb]
  refine (pay_apply _ _ _ p j).trans ?_
  refine (Finset.sum_congr rfl fun k _ => ?_).trans (Spec.feat_apply _ _ _ _ j).symm
  rw [xblk_apply V c t p k ⟨5000 * t.val + p.val, hr⟩ rfl]

/-- An index of the result array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v0).slice (win0_3.rect t)).set ↔ _
  rw [View.set_slice_whole, Rect.mem_set_unit]
  exact Iff.rfl

/-- The 20 row blocks tile the result array: row r is in block r / 5000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 5000, by show (i 0).val / 5000 < 20; omega⟩
  obtain ⟨-, -, -, -, -, -, e30, e31⟩ := idx_facts t
  have htv : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE RESULT ARRAY after the region: the masked feature transform of the arrays it was entered with. -/
theorem final (c : Dev nD) :
    (dat0 V c).arrAt 3 cfg0.N = Spec.feat (V c main_arg0) (V c main_arg3) (V c main_arg4) :=
  (dat0 V c).arrAt_eq_of_cover 3 (Spec.feat (V c main_arg0) (V c main_arg3) (V c main_arg4))
    (fun t _ => flushed_eq V c t) cover

end Cert.KernelIdeal.Feat

end
-- ==== Proof.KHead.lean ====
/-
  The second region's result array. The region tiles the 100000 rows of the aggregated features into 20 blocks
  of 5000; at block t the body adds the first bias row to rows 5000·t … 5000·t + 4999, takes the maximum with
  zero, multiplies by the elementwise product of the whole classifier weight and mask arrays (one matrix product
  into a zero accumulator; the change of float format is the identity on the extended reals) and adds the second
  bias row. Entry (p, j) of what block t writes back is the sum over k of
  max (a[5000·t + p, k] + b1[0, k]) 0 · (w[k, j] · mk[k, j]), plus b2[0, j]: row 5000·t + p of `Spec.head`.
  The 20 blocks tile the result array, so after the region it holds `Spec.head` of the arrays it was entered with.
-/
import proofs.«120185_j15264313770213_1_alg».proof.Proof.Gen.KernelIdeal.Frame
import proofs.«120185_j15264313770213_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## The body's matrix product at an index -/

/-- The left operand of the product is read at the output's row … -/
theorem lhs_row (i : S5000x10.Idx) (q : dot_S5000x64_S64x10_S5000x10_1_0_0_1_n_n.contr.Idx) :
    (dot_S5000x64_S64x10_S5000x10_1_0_0_1_n_n.lhsIdx i q 0).val = (i 0).val := by
  unfold DotDims.lhsIdx
  rw [dif_neg (show ¬(0 : Fin S5000x64.rank) ∈ dot_S5000x64_S64x10_S5000x10_1_0_0_1_n_n.lhsBatch by decide), dif_pos (show (0 : Fin S5000x64.rank) ∈ dot_S5000x64_S64x10_S5000x10_1_0_0_1_n_n.lhsNonContracting by decide)]
  rfl
/-- … and at the contraction index on its second axis; -/
theorem lhs_col (i : S5000x10.Idx) (q : dot_S5000x64_S64x10_S5000x10_1_0_0_1_n_n.contr.Idx) :
    (dot_S5000x64_S64x10_S5000x10_1_0_0_1_n_n.lhsIdx i q 1).val = (q ⟨0, by decide⟩).val :=
  dot_S5000x64_S64x10_S5000x10_1_0_0_1_n_n.lhsIdx_val_of_single rfl i q
/-- the right operand at the contraction index on its first axis … -/
theorem rhs_row (i : S5000x10.Idx) (q : dot_S5000x64_S64x10_S5000x10_1_0_0_1_n_n.contr.Idx) :
    (dot_S5000x64_S64x10_S5000x10_1_0_0_1_n_n.rhsIdx i q 0).val = (q ⟨0, by decide⟩).val :=
  dot_S5000x64_S64x10_S5000x10_1_0_0_1_n_n.rhsIdx_val_of_single rfl i q
/-- … and at the output's column. -/
theorem rhs_col (i : S5000x10.Idx) (q : dot_S5000x64_S64x10_S5000x10_1_0_0_1_n_n.contr.Idx) :
    (dot_S5000x64_S64x10_S5000x10_1_0_0_1_n_n.rhsIdx i q 1).val = (i 1).val := by
  unfold DotDims.rhsIdx
  rw [dif_neg (show ¬(1 : Fin S64x10.rank) ∈ dot_S5000x64_S64x10_S5000x10_1_0_0_1_n_n.rhsBatch by decide), dif_pos (show (1 : Fin S64x10.rank) ∈ dot_S5000x64_S64x10_S5000x10_1_0_0_1_n_n.rhsNonContracting by decide)]
  rfl

/-- The rectified, biased row block at an entry: the bias row is the same for every row of the block. -/
theorem act_apply (a : FVec Ideal S5000x64 .f32) (b1 : FVec Ideal S1x64 .f32) (p : Fin 5000) (k : Fin 64) :
    maximumf (addf (shapeCast S5000x64 a shapeCasts_S5000x64_S5000x64)
        (broadcastTo S5000x64 (shapeCast S1x64 b1 shapeCasts_S1x64_S1x64) broadcasts_S1x64_S5000x64))
      (broadcast S5000x64 (Scalar.ofBits (F := Ideal) .f32 0x00000000#32)) (ix2 p k)
      = max (a (ix2 p k) + b1 (ix2 (0 : Fin 1) k)) (Ideal.ofBits .f32 0x00000000#32) := by
  rw [shapeCast_self, shapeCast_self]
  show max (a (ix2 p k) + broadcastTo S5000x64 b1 broadcasts_S1x64_S5000x64 (ix2 p k)) _ = _
  rw [broadcastTo_1b_ab_apply]
  rfl

/-- The second bias row, the same for every row of the block. -/
theorem bias_apply (b2 : FVec Ideal S1x10 .f32) (p : Fin 5000) (j : Fin 10) :
    broadcastTo S5000x10 (shapeCast S1x10 b2 shapeCasts_S1x10_S1x10) broadcasts_S1x10_S5000x10 (ix2 p j) = b2 (ix2 (0 : Fin 1) j) := by
  rw [shapeCast_self, broadcastTo_1b_ab_apply]

/-- What the body stores, at entry (p, j) of the block. -/
theorem pay_apply (a : FVec Ideal S5000x64 .f32) (b1 : FVec Ideal S1x64 .f32) (w mk : FVec Ideal S64x10 .f32)
    (b2 : FVec Ideal S1x10 .f32) (p : Fin 5000) (j : Fin 10) :
    k1_pay1 (F := Ideal) a b1 w mk b2 (ix2 p j)
      = (∑ k : Fin 64, max (a (ix2 p k) + b1 (ix2 (0 : Fin 1) k)) (Ideal.ofBits .f32 0x00000000#32) * (w (ix2 k j) * mk (ix2 k j)))
        + b2 (ix2 (0 : Fin 1) j) := by
  unfold k1_pay1
  simp only [matmul]
  refine congrArg₂ (· + ·) ?_ (bias_apply b2 p j)
  rw [Ideal.matmul_constant_zero_apply, ← Equiv.sum_comp (contrEquiv1 dot_S5000x64_S64x10_S5000x10_1_0_0_1_n_n 64 rfl rfl).symm]
  refine Finset.sum_congr rfl fun k _ => ?_
  have hk := contrEquiv1_symm_val dot_S5000x64_S64x10_S5000x10_1_0_0_1_n_n 64 rfl rfl k
  have el : dot_S5000x64_S64x10_S5000x10_1_0_0_1_n_n.lhsIdx (ix2 p j) ((contrEquiv1 dot_S5000x64_S64x10_S5000x10_1_0_0_1_n_n 64 rfl rfl).symm k) = ix2 p k := funext fun ax => Fin.ext (by
    match ax with
    | ⟨0, _⟩ => exact lhs_row _ _
    | ⟨1, _⟩ => exact (lhs_col _ _).trans hk)
  have er : dot_S5000x64_S64x10_S5000x10_1_0_0_1_n_n.rhsIdx (ix2 p j) ((contrEquiv1 dot_S5000x64_S64x10_S5000x10_1_0_0_1_n_n 64 rfl rfl).symm k) = ix2 k j := funext fun ax => Fin.ext (by
    match ax with
    | ⟨0, _⟩ => exact (rhs_row _ _).trans hk
    | ⟨1, _⟩ => exact rhs_col _ _)
  rw [el, er]
  exact congrArg (· * (w (ix2 k j) * mk (ix2 k j))) (act_apply a b1 p k)

/-! ## The blocks -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block windows (the aggregated features, the result) sit at block t on
    the row axis, the bias, weight and mask windows at the origin. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregated-feature window's block t is rows 5000·t … of the array. -/
theorem ablk_apply (c : Dev nD) (t : Fin cfg1.N) (p : Fin 5000) (k : Fin 64) (r : Fin 100000) (hr : r.val = 5000 * t.val + p.val) :
    iblk1 V c 0 t (ix2 p k) = V c main_v47 (ix2 r k) := by
  obtain ⟨e00, e01, -⟩ := idx_facts t
  show V c main_v47 (((cfg1.win 0).blk t).view.emb (ix2 p k)) = V c main_v47 (ix2 r k)
  refine congrArg (V c main_v47) (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- The first bias window's block is the whole bias row at every point. -/
theorem b1blk_eq (c : Dev nD) (t : Fin cfg1.N) : iblk1 V c 1 t = V c main_v48 := by
  obtain ⟨-, -, e10, e11, -⟩ := idx_facts t
  funext y
  show V c main_v48 (((cfg1.win 1).blk t).view.emb y) = V c main_v48 y
  refine congrArg (V c main_v48) (funext fun a => Fin.ext ?_)
  match a with
  | ⟨0, _⟩ => show win1_1.index t (0 : Fin 2) * 1 + 1 * (y 0).val = (y 0).val; omega
  | ⟨1, _⟩ => show win1_1.index t (1 : Fin 2) * 64 + 1 * (y 1).val = (y 1).val; omega

/-- The weight window's block is the whole weight array at every point. -/
theorem wblk_eq (c : Dev nD) (t : Fin cfg1.N) : iblk1 V c 2 t = V c main_arg6 := by
  obtain ⟨-, -, -, -, e20, e21, -⟩ := idx_facts t
  funext y
  show V c main_arg6 (((cfg1.win 2).blk t).view.emb y) = V c main_arg6 y
  refine congrArg (V c main_arg6) (funext fun a => Fin.ext ?_)
  match a with
  | ⟨0, _⟩ => show win1_2.index t (0 : Fin 2) * 64 + 1 * (y 0).val = (y 0).val; omega
  | ⟨1, _⟩ => show win1_2.index t (1 : Fin 2) * 10 + 1 * (y 1).val = (y 1).val; omega

/-- The mask window's block is the whole mask array at every point. -/
theorem mblk_eq (c : Dev nD) (t : Fin cfg1.N) : iblk1 V c 3 t = V c main_arg7 := by
  obtain ⟨-, -, -, -, -, -, e30, e31, -⟩ := idx_facts t
  funext y
  show V c main_arg7 (((cfg1.win 3).blk t).view.emb y) = V c main_arg7 y
  refine congrArg (V c main_arg7) (funext fun a => Fin.ext ?_)
  match a with
  | ⟨0, _⟩ => show win1_3.index t (0 : Fin 2) * 64 + 1 * (y 0).val = (y 0).val; omega
  | ⟨1, _⟩ => show win1_3.index t (1 : Fin 2) * 10 + 1 * (y 1).val = (y 1).val; omega

/-- The second bias window's block is the whole bias row at every point. -/
theorem b2blk_eq (c : Dev nD) (t : Fin cfg1.N) : iblk1 V c 4 t = V c main_v49 := by
  obtain ⟨-, -, -, -, -, -, -, -, e40, e41, -⟩ := idx_facts t
  funext y
  show V c main_v49 (((cfg1.win 4).blk t).view.emb y) = V c main_v49 y
  refine congrArg (V c main_v49) (funext fun a => Fin.ext ?_)
  match a with
  | ⟨0, _⟩ => show win1_4.index t (0 : Fin 2) * 1 + 1 * (y 0).val = (y 0).val; omega
  | ⟨1, _⟩ => show win1_4.index t (1 : Fin 2) * 10 + 1 * (y 1).val = (y 1).val; omega

/-- The classifier of the arrays the region is entered with: the bias rows read off their one-row arrays. -/
abbrev G (c : Dev nD) : FVec Ideal S100000x10 .f32 :=
  Spec.head (V c main_v47) (fun k => V c main_v48 (ix2 (0 : Fin 1) k)) (V c main_arg6) (V c main_arg7)
    (fun j => V c main_v49 (ix2 (0 : Fin 1) j))

/-- WHAT POINT t WRITES BACK is block t of the classifier of the arrays the region was entered with. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S1x64) hz, View.ld_unit_zero (S := S64x10) hz,
    View.ld_unit_zero (S := S1x10) hz]
  rw [b1blk_eq V c t, wblk_eq V c t, mblk_eq V c t, b2blk_eq V c t]
  obtain ⟨-, -, -, -, -, -, -, -, -, -, e50, e51⟩ := idx_facts t
  funext y
  obtain ⟨p, j, rfl⟩ : ∃ (p : Fin 5000) (j : Fin 10), y = ix2 p j := ⟨y 0, y 1, eq_ix2 y⟩
  have ht : t.val < 20 := t.isLt
  have hr : 5000 * t.val + p.val < 100000 := by have := p.isLt; omega
  show k1_pay1 (F := Ideal) (iblk1 V c 0 t) (V c main_v48) (V c main_arg6) (V c main_arg7) (V c main_v49) (ix2 p j)
    = G V c (((cfg1.win 5).blk t).view.emb (ix2 p j))
  have hemb : ((cfg1.win 5).blk t).view.emb (ix2 p j) = ix2 (⟨5000 * t.val + p.val, hr⟩ : Fin 100000) j := funext fun a => Fin.ext (by
    match a with
    | ⟨0, _⟩ => show win1_5.index t (0 : Fin 2) * 5000 + 1 * p.val = 5000 * t.val + p.val; omega
    | ⟨1, _⟩ => show win1_5.index t (1 : Fin 2) * 10 + 1 * j.val = j.val; omega)
  rw [hemb]
  refine (pay_apply _ _ _ _ _ p j).trans ?_
  refine Eq.trans ?_ (Spec.head_apply (V c main_v47) (fun k => V c main_v48 (ix2 (0 : Fin 1) k)) (V c main_arg6) (V c main_arg7)
    (fun j => V c main_v49 (ix2 (0 : Fin 1) j)) ⟨5000 * t.val + p.val, hr⟩ j).symm
  have hblk : ∀ k : Fin 64, iblk1 V c 0 t (ix2 p k) = V c main_v47 (ix2 (⟨5000 * t.val + p.val, hr⟩ : Fin 100000) k) :=
    fun k => ablk_apply V c t p k _ rfl
  simp only [hblk]

/-- An index of the result array is in point t's block iff each coordinate is in the block's range on its axis. -/
theorem mem_blk (t : Fin cfg1.N) (i : S100000x10.Idx) :
    i ∈ ((cfg1.win 5).blk t).view.set ↔ ∀ a : Fin 2, win1_5.index t a * S5000x10.size a ≤ (i a).val ∧ (i a).val < win1_5.index t a * S5000x10.size a + S5000x10.size a := by
  show i ∈ ((View.whole main_v50).slice (win1_5.rect t)).set ↔ _
  rw [View.set_slice_whole, Rect.mem_set_unit]
  exact Iff.rfl

/-- The 20 row blocks tile the result array: row r is in block r / 5000. -/
theorem cover (i : S100000x10.Idx) : ∃ t : Fin cfg1.N, (cfg1.win 5).flush t = true ∧ i ∈ ((cfg1.win 5).blk t).view.set := by
  have hi0 : (i 0).val < 100000 := (i 0).isLt
  have hi1 : (i 1).val < 10 := (i 1).isLt
  let t : Fin cfg1.N := ⟨(i 0).val / 5000, by show (i 0).val / 5000 < 20; omega⟩
  obtain ⟨-, -, -, -, -, -, -, -, -, -, e50, e51⟩ := idx_facts t
  have htv : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 10 ≤ (i 1).val ∧ (i 1).val < win1_5.index t (1 : Fin 2) * 10 + 10; omega

/-- THE RESULT ARRAY after the region: the classifier of the arrays it was entered with. -/
theorem final (c : Dev nD) : (dat1 V c).arrAt 5 cfg1.N = G V c :=
  (dat1 V c).arrAt_eq_of_cover 5 (G V c) (fun t _ => flushed_eq V c t) cover

end Cert.KernelIdeal.Head

end
-- ==== Proof.RefValue.lean ====
/-
  The reference's result as a function of its arguments.

  Between its two dense stages the reference (and the kernel's program, operation for operation) runs the graph
  aggregation: the edge list (source row, destination row) gets one self-loop per node appended and the edge weights a
  1 per self-loop; the degree of a node is the sum of the weights of the edges that end in it; its inverse square root
  (taken of the degree bounded below by a tiny constant, and replaced by 0 where the degree is not positive) is
  gathered at both ends of every edge — negative indices wrapped by the node count — and multiplied with the edge's
  weight to the edge's normalisation; finally every edge adds its source node's feature row, scaled by its
  normalisation, into its destination node's row. `agg h ei ew` is that whole chain as ONE function of the feature array
  h, the edge index array and the edge weight array: nothing below ever looks inside a gather or a scatter.

  With it the reference's result is `Spec.head (agg (Spec.feat x w1 m1) ei ew) b1 w2 m2 b2`: its first matrix product is
  `Spec.feat` and its bias, rectifier, second matrix product and bias are `Spec.head`, entry by entry.
-/
import proofs.«120185_j15264313770213_1_alg».proof.Proof.Gen.ReferenceIdeal.Run
import proofs.«120185_j15264313770213_1_alg».proof.Proof.Gen.ReferenceIdeal.Read
import proofs.«120185_j15264313770213_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-! ## The aggregation, as one function -/

section Agg

variable {F : FTy → Type} [FloatOps F]

/-- The source node of every edge, the self-loops' appended. -/
def src (ei : IVec S2x3200000 32) : IVec S3300000 32 :=
  concatenate S3300000 0 [⟨S3200000, shapeCast _ (extractStridedSlice S1x3200000 ![0, 0] ei slices_S2x3200000_S1x3200000_0_0) shapeCasts_S1x3200000_S3200000⟩, ⟨S100000, iotaInDim S100000 32 0⟩] concatenates_S3200000_S100000_S3300000_d0

/-- The destination node of every edge, the self-loops' appended. -/
def dst (ei : IVec S2x3200000 32) : IVec S3300000 32 :=
  concatenate S3300000 0 [⟨S3200000, shapeCast _ (extractStridedSlice S1x3200000 ![1, 0] ei slices_S2x3200000_S1x3200000_1_0) shapeCasts_S1x3200000_S3200000⟩, ⟨S100000, iotaInDim S100000 32 0⟩] concatenates_S3200000_S100000_S3300000_d0

/-- The weight of every edge, 1 for each self-loop. -/
def wts (ew : FVec F S3200000 .f32) : FVec F S3300000 .f32 :=
  concatenate S3300000 0 [⟨S3200000, ew⟩, ⟨S100000, broadcastInDim S100000 ![] bcast_S_S100000 (constant (F := F) S_ .f32 0x3F800000#32)⟩] concatenates_S3200000_S100000_S3300000_d0

/-- A list of node indices as the one-column index array a gather or a scatter takes. -/
def col (v : IVec S3300000 32) : IVec S3300000x1 32 :=
  broadcastInDim S3300000x1 ![0] bcast_S3300000_S3300000x1_0 v

/-- A negative node index wrapped by the node count. -/
def wrap (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- The weighted in-degree of every node. -/
def deg (ei : IVec S2x3200000 32) (ew : FVec F S3200000 .f32) : FVec F S100000 .f32 :=
  Host.scatterAdd scatter_S100000_S3300000x1_S3300000_n_0_0_1
    (broadcastInDim S100000 ![] bcast_S_S100000 (constant (F := F) S_ .f32 0x00000000#32)) (col (dst ei)) (wts ew)

/-- Its inverse square root, 0 where the degree is not positive. -/
def dis (ei : IVec S2x3200000 32) (ew : FVec F S3200000 .f32) : FVec F S100000 .f32 :=
  select (cmpf .ogt (deg ei ew) (broadcastInDim S100000 ![] bcast_S_S100000 (constant (F := F) S_ .f32 0x00000000#32)))
    (Host.rsqrt (maximumf (deg ei ew) (broadcastInDim S100000 ![] bcast_S_S100000 (constant (F := F) S_ .f32 0x2B8CBCCC#32))))
    (broadcastInDim S100000 ![] bcast_S_S100000 (constant (F := F) S_ .f32 0x00000000#32))

/-- The symmetric normalisation of every edge. -/
def norm (ei : IVec S2x3200000 32) (ew : FVec F S3200000 .f32) : FVec F S3300000 .f32 :=
  mulf (mulf (Host.gather gather_S100000_S3300000x1_S3300000_n_0_n_n_0_1_1 (dis ei ew) (col (wrap (src ei)))) (wts ew))
    (Host.gather gather_S100000_S3300000x1_S3300000_n_0_n_n_0_1_1 (dis ei ew) (col (wrap (dst ei))))

/-- THE AGGREGATION: every edge adds its source's feature row, scaled by its normalisation, into its destination's row. -/
def agg (h : FVec F S100000x64 .f32) (ei : IVec S2x3200000 32) (ew : FVec F S3200000 .f32) : FVec F S100000x64 .f32 :=
  Host.scatterAdd scatter_S100000x64_S3300000x1_S3300000x64_1_0_0_1
    (broadcastInDim S100000x64 ![] bcast_S_S100000x64 (constant (F := F) S_ .f32 0x00000000#32)) (col (dst ei))
    (mulf (Host.gather gather_S100000x64_S3300000x1_S3300000x64_1_0_n_n_0_1_164 h (col (wrap (src ei))))
      (broadcastInDim S3300000x64 ![0, 1] bcast_S3300000x1_S3300000x64_0_1
        (broadcastInDim S3300000x1 ![0] bcast_S3300000_S3300000x1_0 (norm ei ew))))

/-- The reference's aggregated features are the aggregation of its first product. -/
theorem aggregated_eq (x0 : FVec F S100000x512 .f32) (x1 : IVec S2x3200000 32) (x2 : FVec F S3200000 .f32) (x3 x4 : FVec F S512x64 .f32) :
    Read.val_main_v48 (F := F) x0 x1 x2 x3 x4 = agg (Read.val_main_v1 (F := F) x0 x3 x4) x1 x2 := rfl

end Agg

/-! ## The two dense stages -/

/-- The reference's first product is the masked feature transform. -/
theorem feat_eq (x0 : FVec Ideal S100000x512 .f32) (x3 x4 : FVec Ideal S512x64 .f32) :
    Read.val_main_v1 (F := Ideal) x0 x3 x4 = Spec.feat x0 x3 x4 := by
  funext i
  rw [Read.val_main_v1_apply]
  refine Finset.sum_congr rfl fun k _ => ?_
  rw [Read.val_main_v0_apply]
  have el : Read.lidx_main_v1 i k = ix2 (i 0) k := funext fun a => Fin.ext (by match a with | ⟨0, _⟩ => rfl | ⟨1, _⟩ => rfl)
  have er : Read.ridx_main_v1 i k = ix2 k (i 1) := funext fun a => Fin.ext (by match a with | ⟨0, _⟩ => rfl | ⟨1, _⟩ => rfl)
  rw [el, er]
  rfl

/-- The reference's result is the classifier of its aggregated features. -/
theorem head_eq (x0 : FVec Ideal S100000x512 .f32) (x1 : IVec S2x3200000 32) (x2 : FVec Ideal S3200000 .f32) (x3 x4 : FVec Ideal S512x64 .f32)
    (x5 : FVec Ideal S64 .f32) (x6 x7 : FVec Ideal S64x10 .f32) (x8 : FVec Ideal S10 .f32) :
    Read.val_main_v57 (F := Ideal) x0 x1 x2 x3 x4 x5 x6 x7 x8
      = Spec.head (Read.val_main_v48 (F := Ideal) x0 x1 x2 x3 x4) (fun k => x5 (ix1 k)) x6 x7 (fun j => x8 (ix1 j)) := by
  funext i
  obtain ⟨r, j, rfl⟩ : ∃ (r : Fin 100000) (j : Fin 10), i = ix2 r j := ⟨i 0, i 1, eq_ix2 i⟩
  have el : ∀ k : Fin 64, Read.lidx_main_v54 (ix2 r j) k = ix2 r k := fun k => funext fun a => Fin.ext (by match a with | ⟨0, _⟩ => rfl | ⟨1, _⟩ => rfl)
  have er : ∀ k : Fin 64, Read.ridx_main_v54 (ix2 r j) k = ix2 k j := fun k => funext fun a => Fin.ext (by match a with | ⟨0, _⟩ => rfl | ⟨1, _⟩ => rfl)
  have eb1 : ∀ k : Fin 64, Read.idx_main_v49 (Read.idx_main_v50 (ix2 r k)) = ix1 k := fun k => funext fun a => Fin.ext (by match a with | ⟨0, _⟩ => rfl)
  have eb2 : Read.idx_main_v55 (Read.idx_main_v56 (ix2 r j)) = ix1 j := funext fun a => Fin.ext (by match a with | ⟨0, _⟩ => rfl)
  rw [Read.val_main_v57_apply, Read.val_main_v54_apply, Read.val_main_v56_apply, Read.val_main_v55_apply, eb2]
  refine Eq.trans ?_ (Spec.head_apply (Read.val_main_v48 (F := Ideal) x0 x1 x2 x3 x4) (fun k => x5 (ix1 k)) x6 x7 (fun j => x8 (ix1 j)) r j).symm
  refine congrArg (fun s : EReal => s + x8 (ix1 j)) (Finset.sum_congr rfl fun k _ => ?_)
  rw [el k, er k, Read.val_main_v52_apply, Read.val_main_v51_apply, Read.val_main_v50_apply, Read.val_main_v49_apply, eb1 k,
    Read.val_main_call1_v0_apply, Read.val_main_call1_cst_apply, Read.val_main_v53_apply]
  rfl

/-! ## The reference's result -/

/-- What the reference's run leaves in its result buffer: the classifier of the aggregation of the masked feature
    transform, of its nine argument arrays. -/
theorem result_eq (m : (ℓ : Loc nD τ sig) → Buf (Elt Ideal) ℓ) (c : Dev nD) :
    Cert.ReferenceIdeal.Value.res_main_v57 (F := Ideal) m c
      = Spec.head
          (agg (Spec.feat (m ((c.tc : Thread nD τ).loc main_arg0)) (m ((c.tc : Thread nD τ).loc main_arg3)) (m ((c.tc : Thread nD τ).loc main_arg4)))
            (m ((c.tc : Thread nD τ).loc main_arg1)) (m ((c.tc : Thread nD τ).loc main_arg2)))
          (fun k => m ((c.tc : Thread nD τ).loc main_arg5) (ix1 k)) (m ((c.tc : Thread nD τ).loc main_arg6)) (m ((c.tc : Thread nD τ).loc main_arg7))
          (fun j => m ((c.tc : Thread nD τ).loc main_arg8) (ix1 j)) := by
  rw [Read.val_main_v57_eq, head_eq, aggregated_eq, feat_eq]

end Cert.ReferenceIdeal.RefValue

end
-- ==== Proof.Bridge.lean ====
/-
  The kernel program's result as a function of its arguments.

  Region 0 leaves the masked feature transform `Spec.feat` of the node features, weight and mask in its result array. The
  host stretch between the regions is the reference's graph aggregation, operation for operation, applied to that
  array, the edge indices and the edge weights — the ONE function `RefValue.agg`, never opened here —, and reshapes
  the two bias vectors to one-row arrays. Region 1 leaves the classifier `Spec.head` of what it is entered with. So the
  result buffer ends at `Spec.head (agg (Spec.feat x w1 m1) ei ew) b1 w2 m2 b2`: the reference's own result.
-/
import proofs.«120185_j15264313770213_1_alg».proof.Proof.KFeat
import proofs.«120185_j15264313770213_1_alg».proof.Proof.KHead
import proofs.«120185_j15264313770213_1_alg».proof.Proof.RefValue
import Idealize.ShloMosaic.Lib.StableHlo.Run
import Idealize.ShloMosaic.Lib.ValueLayout

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.StableHlo Idealize.ShloMosaic.ValueIdx

/-! ## The host stretch between the regions, at any float family -/

section Host

variable {F : FTy → Type} [FloatOps F]
variable (m : (ℓ : Loc nD τ sig) → Buf (Elt F) ℓ) (ρ : Dev nD → PrngReg)

set_option maxHeartbeats 4000000 in
/-- The array the second region reads its row blocks from is the aggregation of the first region's result over the
    edge indices and weights. -/
theorem aggregated (c : Dev nD) :
    W4 m ρ c (Proc.devRef .tc main_v47)
      = Cert.ReferenceIdeal.RefValue.agg (W1 m ρ c (Proc.devRef .tc main_v0)) (W1 m ρ c (Proc.devRef .tc main_arg1))
          (W1 m ρ c (Proc.devRef .tc main_arg2)) := by
  show StableHlo.after hostOps1_2 (StableHlo.after hostOps1_1 (StableHlo.after hostOps1 (W1 m ρ c))) (Proc.devRef .tc main_v47) = _
  generalize W1 m ρ c = Wv
  simp only [hostOps1, hostOps1_1, hostOps1_2]
  after_results_simp
  rfl

set_option maxHeartbeats 4000000 in
/-- The first bias, as the one-row array the second region reads. -/
theorem bias1_row (c : Dev nD) :
    W4 m ρ c (Proc.devRef .tc main_v48) = shapeCast S1x64 (W1 m ρ c (Proc.devRef .tc main_arg5)) shapeCasts_S64_S1x64 := by
  show StableHlo.after hostOps1_2 (StableHlo.after hostOps1_1 (StableHlo.after hostOps1 (W1 m ρ c))) (Proc.devRef .tc main_v48) = _
  generalize W1 m ρ c = Wv
  simp only [hostOps1, hostOps1_1, hostOps1_2]
  after_results_simp
  rfl

set_option maxHeartbeats 4000000 in
/-- The second bias, as the one-row array the second region reads. -/
theorem bias2_row (c : Dev nD) :
    W4 m ρ c (Proc.devRef .tc main_v49) = shapeCast S1x10 (W1 m ρ c (Proc.devRef .tc main_arg8)) shapeCasts_S10_S1x10 := by
  show StableHlo.after hostOps1_2 (StableHlo.after hostOps1_1 (StableHlo.after hostOps1 (W1 m ρ c))) (Proc.devRef .tc main_v49) = _
  generalize W1 m ρ c = Wv
  simp only [hostOps1, hostOps1_1, hostOps1_2]
  after_results_simp
  rfl

/-- An argument array no window of the first region reads and no host operation writes is, at the second region's
    entry, what was launched: the classifier weight … -/
theorem entry_w2 (c : Dev nD) : W4 m ρ c (Proc.devRef .tc main_arg6) = m ((c : Thread nD τ).loc main_arg6) :=
  ((W5_arr m ρ c 2).trans (((dat1 (V4 m ρ) c).arrAt_in 2 rfl _).trans (A_eq1 (V4 m ρ) c 2))).symm.trans (W5_main_arg6 m ρ c)
/-- … and its mask. -/
theorem entry_m2 (c : Dev nD) : W4 m ρ c (Proc.devRef .tc main_arg7) = m ((c : Thread nD τ).loc main_arg7) :=
  ((W5_arr m ρ c 3).trans (((dat1 (V4 m ρ) c).arrAt_in 3 rfl _).trans (A_eq1 (V4 m ρ) c 3))).symm.trans (W5_main_arg7 m ρ c)

/-- The first region writes none of these arguments, so after it they are as launched. -/
theorem exit0_ei (c : Dev nD) : W1 m ρ c (Proc.devRef .tc main_arg1) = m ((c : Thread nD τ).loc main_arg1) := W1_of_ne m ρ c main_arg1 (by decide)
theorem exit0_ew (c : Dev nD) : W1 m ρ c (Proc.devRef .tc main_arg2) = m ((c : Thread nD τ).loc main_arg2) := W1_of_ne m ρ c main_arg2 (by decide)
theorem exit0_b1 (c : Dev nD) : W1 m ρ c (Proc.devRef .tc main_arg5) = m ((c : Thread nD τ).loc main_arg5) := W1_of_ne m ρ c main_arg5 (by decide)
theorem exit0_b2 (c : Dev nD) : W1 m ρ c (Proc.devRef .tc main_arg8) = m ((c : Thread nD τ).loc main_arg8) := W1_of_ne m ρ c main_arg8 (by decide)

end Host

/-! ## The result, on the extended reals -/

variable (m : (ℓ : Loc nD τ sig) → Buf (Elt Ideal) ℓ) (ρ : Dev nD → PrngReg)

/-- After the first region its result array holds the masked feature transform of the launched arrays. -/
theorem exit0_feat (c : Dev nD) :
    W1 m ρ c (Proc.devRef .tc main_v0) = Spec.feat (m ((c : Thread nD τ).loc main_arg0)) (m ((c : Thread nD τ).loc main_arg3)) (m ((c : Thread nD τ).loc main_arg4)) :=
  (W1_arr m ρ c 3).trans (Feat.final (V0 m ρ) c)

/-- THE KERNEL PROGRAM'S RESULT: the classifier of the aggregation of the masked feature transform, of its nine
    argument arrays — the same function the reference computes. -/
theorem result (c : Dev nD) :
    W5 m ρ c (Proc.devRef .tc main_v50)
      = Spec.head
          (Cert.ReferenceIdeal.RefValue.agg (Spec.feat (m ((c : Thread nD τ).loc main_arg0)) (m ((c : Thread nD τ).loc main_arg3)) (m ((c : Thread nD τ).loc main_arg4)))
            (m ((c : Thread nD τ).loc main_arg1)) (m ((c : Thread nD τ).loc main_arg2)))
          (fun k => m ((c : Thread nD τ).loc main_arg5) (ix1 k)) (m ((c : Thread nD τ).loc main_arg6)) (m ((c : Thread nD τ).loc main_arg7))
          (fun j => m ((c : Thread nD τ).loc main_arg8) (ix1 j)) := by
  refine (W5_arr m ρ c 5).trans ((Head.final (V4 m ρ) c).trans ?_)
  show Spec.head (W4 m ρ c (Proc.devRef .tc main_v47)) (fun k => W4 m ρ c (Proc.devRef .tc main_v48) (ix2 (0 : Fin 1) k))
      (W4 m ρ c (Proc.devRef .tc main_arg6)) (W4 m ρ c (Proc.devRef .tc main_arg7))
      (fun j => W4 m ρ c (Proc.devRef .tc main_v49) (ix2 (0 : Fin 1) j)) = _
  rw [aggregated, bias1_row, bias2_row, entry_w2, entry_m2, exit0_feat, exit0_ei, exit0_ew, exit0_b1, exit0_b2]
  have h1 : (fun k : Fin 64 => shapeCast S1x64 (m ((c : Thread nD τ).loc main_arg5)) shapeCasts_S64_S1x64 (ix2 (0 : Fin 1) k))
      = fun k => m ((c : Thread nD τ).loc main_arg5) (ix1 k) := funext fun k => shapeCast_a_1a_apply _ _ 0 k
  have h2 : (fun j : Fin 10 => shapeCast S1x10 (m ((c : Thread nD τ).loc main_arg8)) shapeCasts_S10_S1x10 (ix2 (0 : Fin 1) j))
      = fun j => m ((c : Thread nD τ).loc main_arg8) (ix1 j) := funext fun j => shapeCast_a_1a_apply _ _ 0 j
  rw [h1, h2]

end Cert.KernelIdeal.Bridge

end
-- ==== Proof.lean ====
/-
  The certificate's claims.

  The kernel program and the reference compute the same function of their nine arguments on the extended reals: the
  masked feature transform `Spec.feat` (the kernel in 20 row blocks of 5000, the reference as one product), the graph
  aggregation `RefValue.agg` — the same operations in the same order on both sides, carried as one function and never
  opened —, and the classifier `Spec.head` (again 20 row blocks against one product). No law beyond reading each
  operation at an index is used, so the finiteness of the inputs is never needed.

  The three frames are the generated ones (the reference's is its generated run with the result dropped); the ideal
  pass rewrote nothing, so `preserves` has nothing to state.
-/
import proofs.«120185_j15264313770213_1_alg».proof.Defs
import proofs.«120185_j15264313770213_1_alg».proof.Proof.Gen.Kernel
import proofs.«120185_j15264313770213_1_alg».proof.Proof.Gen.Kernel.Frame
import proofs.«120185_j15264313770213_1_alg».proof.Proof.Gen.KernelIdeal
import proofs.«120185_j15264313770213_1_alg».proof.Proof.Gen.KernelIdeal.Frame
import proofs.«120185_j15264313770213_1_alg».proof.Proof.Gen.ReferenceIdeal
import proofs.«120185_j15264313770213_1_alg».proof.Proof.Gen.ReferenceIdeal.Run
import proofs.«120185_j15264313770213_1_alg».proof.Proof.Gen.Pre_finite_inputs
import proofs.«120185_j15264313770213_1_alg».proof.Proof.KernelRun
import proofs.«120185_j15264313770213_1_alg».proof.Proof.Bridge
import proofs.«120185_j15264313770213_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the classifier of the aggregation of the masked feature transform of the (agreeing)
    arguments in their result buffers. -/
theorem algebraic : Cert.algebraic_KernelIdeal_ReferenceIdeal := by
  intro m ρ m' ρ' _ hagree
  refine ⟨fun c => Spec.head
      (Cert.ReferenceIdeal.RefValue.agg (Spec.feat (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (fun k => m ((c.tc : Thread Cert.KernelIdeal.nD Cert.KernelIdeal.τ).loc Cert.KernelIdeal.main_arg5) (ix1 k)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (fun j => m ((c.tc : Thread Cert.KernelIdeal.nD Cert.KernelIdeal.τ).loc Cert.KernelIdeal.main_arg8) (ix1 j)), ?_, ?_⟩
  · exact (θ_run Cert.KernelIdeal.defs _ _).mono (fun r h c => ⟨(h c).1.trans (Cert.KernelIdeal.Bridge.result m ρ c), (h c).2⟩)
      (Cert.KernelIdeal.ValueRun.run (F := Ideal) m ρ)
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7, h8⟩ := hagree c
    rw [Cert.ReferenceIdeal.RefValue.result_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
